-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S2000x1 : Shape := ⟨2, ![2000, 1]⟩
abbrev S1x128 : Shape := ⟨2, ![1, 128]⟩

abbrev nBuf : Space → Nat
  | .hbm => 53
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S128x128, .f32⟩
  | .hbm, ⟨52, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S128x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S50000x128, .f32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S50000x128, .f32⟩
  | .hbm, ⟨64, _⟩ => ⟨S50000x1, .f32⟩
  | .hbm, ⟨65, _⟩ => ⟨S_, .f32⟩
  | .hbm, ⟨66, _⟩ => ⟨S50000x1, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S128x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Dense.lean ====
/-
  One dense layer of the graph convolution, as a function of whole arrays read index by index.

  For a node `r` and an output feature `j` the layer takes the neighbourhood sum `agg` and the node's own
  features `x`, scales their sum by the node's factor `inv r` (the reciprocal of one plus the in-degree),
  contracts the scaled row against column `j` of the weight matrix `wt` (already laid out input feature by
  output feature), adds the bias `b j`, and applies `post` (the rectifier in the first layer, nothing in
  the second):

      post ( Σ_k ((agg[r,k] + x[r,k]) · inv[r]) · wt[k,j]  +  b[j] ).

  Both programs are shown to compute this function: the kernel block by block (every block is a range of
  2000 rows, and a row's value depends on that row alone), the reference through its quotient by
  `deg r + 1`, which is the product with the reciprocal because `deg r + 1` is never zero.
-/
import Idealize.ShloMosaic.PureOps.Ideal
import Idealize.ShloMosaic.Lib.ValueIdx

noncomputable section

namespace Cert.Sage

open Idealize.ShloMosaic Idealize.ShloMosaic.ValueIdx

/-- Node features: 50000 nodes, 128 features each. -/
abbrev Nodes : Shape := ⟨2, ![50000, 128]⟩
/-- One factor per node, kept as a column. -/
abbrev Col : Shape := ⟨2, ![50000, 1]⟩
/-- A weight matrix, input feature by output feature. -/
abbrev Wt : Shape := ⟨2, ![128, 128]⟩
/-- A bias, one entry per output feature. -/
abbrev Bias : Shape := ⟨1, ![128]⟩

/-- The layer's value at node `r`, output feature `j`. -/
def denseAt (post : EReal → EReal) (agg x : FVec Ideal Nodes .f32) (inv : FVec Ideal Col .f32)
    (wt : FVec Ideal Wt .f32) (b : FVec Ideal Bias .f32) (r : Fin 50000) (j : Fin 128) : EReal :=
  post ((∑ k : Fin 128, ((agg (ix2 r k) + x (ix2 r k)) * inv (ix2 r (0 : Fin 1))) * wt (ix2 k j)) + b (ix1 j))

/-- The layer as a whole array. -/
def dense (post : EReal → EReal) (agg x : FVec Ideal Nodes .f32) (inv : FVec Ideal Col .f32)
    (wt : FVec Ideal Wt .f32) (b : FVec Ideal Bias .f32) : FVec Ideal Nodes .f32 :=
  fun i => denseAt post agg x inv wt b (i 0) (i 1)

theorem dense_ix2 (post : EReal → EReal) (agg x : FVec Ideal Nodes .f32) (inv : FVec Ideal Col .f32)
    (wt : FVec Ideal Wt .f32) (b : FVec Ideal Bias .f32) (r : Fin 50000) (j : Fin 128) :
    dense post agg x inv wt b (ix2 r j) = denseAt post agg x inv wt b r j := rfl

/-- An array that agrees with the layer at every node and feature is the layer. -/
theorem eq_dense_of_forall (post : EReal → EReal) (agg x : FVec Ideal Nodes .f32) (inv : FVec Ideal Col .f32)
    (wt : FVec Ideal Wt .f32) (b : FVec Ideal Bias .f32) (X : FVec Ideal Nodes .f32)
    (h : ∀ (r : Fin 50000) (j : Fin 128), X (ix2 r j) = denseAt post agg x inv wt b r j) :
    X = dense post agg x inv wt b := by
  funext i
  obtain ⟨r, j, rfl⟩ : ∃ (r : Fin 50000) (j : Fin 128), i = ix2 r j := ⟨i 0, i 1, eq_ix2 i⟩
  exact h r j

/-- The rectifier as both programs spell it: the maximum with the f32 zero. -/
def relu (v : EReal) : EReal := max v (Ideal.ofBits .f32 0x00000000#32)

/-- No activation. -/
def lin (v : EReal) : EReal := v

end Cert.Sage

end
-- ==== Proof.RegionPayload.lean ====
/-
  What the body of each of the two regions computes from the five blocks it loads, read at one index of the block.

  For a row `p` of the block and an output feature `j` it is

      post ( Σ_k ((x0[p,k] + x1[p,k]) · x2[p,0]) · x3[k,j]  +  x4[j] ),

  with `post` the maximum with zero in the first region and nothing in the second: the sum of the two row
  blocks is scaled by the row's factor (a column, broadcast along the features), narrowed to bf16 (no change
  of value over the extended reals), contracted against the weight block into a zero accumulator, and the
  bias row is added to every row.
-/
import proofs.«177798_j82205674045926_1_alg».proof.Proof.Gen.KernelIdeal.Skeleton
import proofs.«177798_j82205674045926_1_alg».proof.Proof.Dense
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionPayload
open Cert.KernelIdeal Cert.KernelIdeal.Gen Idealize.ShloMosaic Idealize.ShloMosaic.ValueIdx

/-! ## The contraction of a row block against the weight matrix, read at an index -/

theorem lhs_dot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Row `p` of the left operand against column `j` of the right one, into a zero accumulator. -/
theorem matmul_zero_apply {φ₁ φ₂ : FTy} (a : FVec Ideal S2000x128 φ₁) (b : FVec Ideal S128x128 φ₂) (p : Fin 2000) (j : Fin 128) :
    matmul dot_S2000x128_S128x128_S2000x128_1_0_0_1_n_n none a b (constant (F := Ideal) S2000x128 .f32 0x00000000#32) (ix2 p j)
      = ∑ k : Fin 128, a (ix2 p k) * b (ix2 k j) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p j) ((ValueIdx.contrEquiv1 dot_S2000x128_S128x128_S2000x128_1_0_0_1_n_n 128 rfl rfl).symm k) = ix2 p k := funext fun ax => Fin.ext (by
    match ax with
    | ⟨0, _⟩ => exact lhs_dot_0 _ _
    | ⟨1, _⟩ => exact (lhs_dot_1 _ _).trans hk)
  have er : dot_S2000x128_S128x128_S2000x128_1_0_0_1_n_n.rhsIdx (ix2 p j) ((ValueIdx.contrEquiv1 dot_S2000x128_S128x128_S2000x128_1_0_0_1_n_n 128 rfl rfl).symm k) = ix2 k j := funext fun ax => Fin.ext (by
    match ax with
    | ⟨0, _⟩ => exact (rhs_dot_0 _ _).trans hk
    | ⟨1, _⟩ => exact rhs_dot_1 _ _)
  rw [el, er]

/-! ## One column broadcast over many -/

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

theorem pay0_apply (x0 x1 : Vec Ideal S2000x128 .f32) (x2 : Vec Ideal S2000x1 .f32) (x3 : Vec Ideal S128x128 .f32)
    (x4 : Vec Ideal S128 .f32) (p : Fin 2000) (j : Fin 128) :
    k0_pay1 (F := Ideal) x0 x1 x2 x3 x4 (ix2 p j)
      = Cert.Sage.relu ((∑ k : Fin 128, ((x0 (ix2 p k) + x1 (ix2 p k)) * x2 (ix2 p (0 : Fin 1))) * x3 (ix2 k j)) + x4 (ix1 j)) := by
  unfold k0_pay1
  rw [maximumf_apply, addf_apply, broadcast_apply, matmul_zero_apply, broadcastTo_1b_ab_apply, shapeCast_a_1a_apply]
  unfold Cert.Sage.relu
  refine congrArg (fun s => max (s + x4 (ix1 j)) _) (Finset.sum_congr rfl fun k _ => ?_)
  rw [truncf_apply, truncf_apply, mulf_apply, addf_apply, broadcastTo_a1_ab_apply, shapeCast_self, shapeCast_self, shapeCast_self]

theorem pay1_apply (x0 x1 : Vec Ideal S2000x128 .f32) (x2 : Vec Ideal S2000x1 .f32) (x3 : Vec Ideal S128x128 .f32)
    (x4 : Vec Ideal S128 .f32) (p : Fin 2000) (j : Fin 128) :
    k1_pay1 (F := Ideal) x0 x1 x2 x3 x4 (ix2 p j)
      = Cert.Sage.lin ((∑ k : Fin 128, ((x0 (ix2 p k) + x1 (ix2 p k)) * x2 (ix2 p (0 : Fin 1))) * x3 (ix2 k j)) + x4 (ix1 j)) := by
  unfold k1_pay1
  rw [addf_apply, matmul_zero_apply, broadcastTo_1b_ab_apply, shapeCast_a_1a_apply]
  unfold Cert.Sage.lin
  refine congrArg (fun s => s + x4 (ix1 j)) (Finset.sum_congr rfl fun k _ => ?_)
  rw [truncf_apply, truncf_apply, mulf_apply, addf_apply, broadcastTo_a1_ab_apply, shapeCast_self, shapeCast_self, shapeCast_self, shapeCast_self]

end Cert.KernelIdeal.RegionPayload
end
-- ==== Proof.Region0Value.lean ====
/-
  What the first region leaves in its output array: the dense layer of the arrays the region finds.

  The region walks 25 grid points. At point `t` it loads rows `2000 t … 2000 t + 1999` of the neighbourhood
  sums, of the nodes' own features and of the column of the nodes' factors, together with the whole weight
  matrix and the whole bias, and stores the body's result into rows `2000 t … 2000 t + 1999` of the output.
  The body's result at row `p` of its blocks depends on row `p` of the three row blocks alone, so it is the
  layer (`Cert.Sage.relu` after the bias) at row `2000 t + p` of the arrays; every row `r` of the output is
  written by point `r / 2000`, so the array ends holding the layer everywhere.
-/
import proofs.«177798_j82205674045926_1_alg».proof.Proof.Gen.KernelIdeal.Frame
import proofs.«177798_j82205674045926_1_alg».proof.Proof.Dense
import proofs.«177798_j82205674045926_1_alg».proof.Proof.RegionPayload
import Idealize.ShloMosaic.Lib.Pipeline.Value

noncomputable section
namespace Cert.KernelIdeal.RegionValue
open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The layer (`Cert.Sage.relu` after the bias) of the arrays the region finds. -/
abbrev G0 (c : Dev nD) : FVec Ideal Cert.Sage.Nodes .f32 :=
  Cert.Sage.dense Cert.Sage.relu (V c main_v22) (V c main_arg0) (V c main_v12) (V c main_v23) (V c main_arg3)

/-- The block index of every window at a grid point: the three row-blocked inputs and the output move with the
    point, the weight and the bias stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of the neighbourhood-sum block at point `t` is row `2000 t + p` of the array. -/
theorem iblk0_0_apply (c : Dev nD) (t : Fin cfg0.N) (p : Fin 2000) (k : Fin 128) (r : Fin 50000)
    (hr : r.val = t.val * 2000 + p.val) :
    (iblk0 (F := Ideal) V c 0 t : Vec Ideal S2000x128 .f32) (ix2 p k) = (V c main_v22 : S50000x128.Idx → EReal) (ix2 r k) := by
  obtain ⟨e0, e1, -⟩ := idx_facts0 t
  unfold iblk0
  rw [View.read_apply]
  refine congrArg (V c main_v22 : S50000x128.Idx → EReal) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The same for the block of the nodes' own features. -/
theorem iblk0_1_apply (c : Dev nD) (t : Fin cfg0.N) (p : Fin 2000) (k : Fin 128) (r : Fin 50000)
    (hr : r.val = t.val * 2000 + p.val) :
    (iblk0 (F := Ideal) V c 1 t : Vec Ideal S2000x128 .f32) (ix2 p k) = (V c main_arg0 : S50000x128.Idx → EReal) (ix2 r k) := by
  obtain ⟨-, -, e0, e1, -⟩ := idx_facts0 t
  unfold iblk0
  rw [View.read_apply]
  refine congrArg (V c main_arg0 : S50000x128.Idx → EReal) (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega

/-- The same for the column of the nodes' factors. -/
theorem iblk0_2_apply (c : Dev nD) (t : Fin cfg0.N) (p : Fin 2000) (r : Fin 50000)
    (hr : r.val = t.val * 2000 + p.val) :
    (iblk0 (F := Ideal) V c 2 t : Vec Ideal S2000x1 .f32) (ix2 p (0 : Fin 1)) = (V c main_v12 : S50000x1.Idx → EReal) (ix2 r (0 : Fin 1)) := by
  obtain ⟨-, -, -, -, e0, e1, -⟩ := idx_facts0 t
  unfold iblk0
  rw [View.read_apply]
  refine congrArg (V c main_v12 : S50000x1.Idx → EReal) (funext fun a => Fin.ext ?_)
  match a with
  | ⟨0, _⟩ => show win0_2.index t (0 : Fin 2) * 2000 + 1 * p.val = r.val; omega
  | ⟨1, _⟩ => show win0_2.index t (1 : Fin 2) * 1 + 1 * 0 = 0; omega

/-- The weight block is the whole weight matrix at every point. -/
theorem iblk0_3_apply (c : Dev nD) (t : Fin cfg0.N) (k j : Fin 128) :
    (iblk0 (F := Ideal) V c 3 t : Vec Ideal S128x128 .f32) (ix2 k j) = (V c main_v23 : S128x128.Idx → EReal) (ix2 k j) := by
  obtain ⟨-, -, -, -, -, -, e0, e1, -⟩ := idx_facts0 t
  unfold iblk0
  rw [View.read_apply]
  refine congrArg (V c main_v23 : S128x128.Idx → EReal) (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

/-- The bias block is the whole bias at every point. -/
theorem iblk0_4_apply (c : Dev nD) (t : Fin cfg0.N) (j : Fin 128) :
    (iblk0 (F := Ideal) V c 4 t : Vec Ideal S128 .f32) (ix1 j) = (V c main_arg3 : S128.Idx → EReal) (ix1 j) := by
  obtain ⟨-, -, -, -, -, -, -, -, e0, -⟩ := idx_facts0 t
  unfold iblk0
  rw [View.read_apply]
  refine congrArg (V c main_arg3 : S128.Idx → EReal) (funext fun a => Fin.ext ?_)
  match a with
  | ⟨0, _⟩ => show win0_4.index t (0 : Fin 1) * 128 + 1 * j.val = j.val; omega

/-- The body's result on the blocks of point `t`, at row `p`, is the layer at row `2000 t + p`. -/
theorem block0_at (c : Dev nD) (t : Fin cfg0.N) (y : S2000x128.Idx) (i : S50000x128.Idx)
    (hi0 : (i 0).val = t.val * 2000 + (y 0).val) (hi1 : (i 1).val = (y 1).val) :
    k0_pay1 (F := Ideal) (iblk0 V c 0 t) (iblk0 V c 1 t) (iblk0 V c 2 t) (iblk0 V c 3 t) (iblk0 V c 4 t) y = G0 V c i := by
  obtain ⟨p, j, rfl⟩ : ∃ (p : Fin 2000) (j : Fin 128), y = ix2 p j := ⟨y 0, y 1, eq_ix2 y⟩
  obtain ⟨r, j', rfl⟩ : ∃ (r : Fin 50000) (j' : Fin 128), i = ix2 r j' := ⟨i 0, i 1, eq_ix2 i⟩
  have hr : r.val = t.val * 2000 + p.val := hi0
  obtain rfl : j' = j := Fin.ext hi1
  refine (RegionPayload.pay0_apply (iblk0 V c 0 t) (iblk0 V c 1 t) (iblk0 V c 2 t) (iblk0 V c 3 t) (iblk0 V c 4 t) p j').trans ?_
  rw [iblk0_4_apply V c t j', iblk0_2_apply V c t p r hr]
  refine congrArg (fun s => Cert.Sage.relu (s + (V c main_arg3 : S128.Idx → EReal) (ix1 j'))) (Finset.sum_congr rfl fun k _ => ?_)
  rw [iblk0_0_apply V c t p k r hr, iblk0_1_apply V c t p k r hr, iblk0_3_apply V c t k j']

/-- What point `t` writes back is block `t` of the layer. -/
theorem flushed0_eq (c : Dev nD) (t : Fin cfg0.N) :
    (dat0 (F := Ideal) V c).flushed 5 t = ((cfg0.win 5).blk t).view.read (Elt Ideal) (G0 V c) := by
  have hz2 : (![0, 0] : Fin 2 → Nat) = fun _ => 0 := funext fun a => by fin_cases a <;> rfl
  have hz1 : (![0] : Fin 1 → Nat) = fun _ => 0 := funext fun a => by fin_cases a; rfl
  show (cfg0.win 5).cut (grid0.coords t) ((dat0 (F := Ideal) V c).after 5 t) = _
  rw [after0_5]
  unfold out0_5
  rw [View.canon_unit_zero hz2]
  simp only [View.ld_unit_zero (S := S2000x128) hz2, View.ld_unit_zero (S := S2000x1) hz2,
    View.ld_unit_zero (S := S128x128) hz2, View.ld_unit_zero (S := S128) hz1]
  obtain ⟨-, -, -, -, -, -, -, -, -, e0, e1⟩ := idx_facts0 t
  funext y
  refine block0_at V c t _ (((cfg0.win 5).blk t).view.emb y) ?_ ?_
  · show win0_5.index t (0 : Fin 2) * 2000 + 1 * (y 0).val = t.val * 2000 + (y 0).val; omega
  · show win0_5.index t (1 : Fin 2) * 128 + 1 * (y 1).val = (y 1).val; omega

/-- An index whose row lies in the rows of point `t` is in that point's block. -/
theorem mem_blk0 (t : Fin cfg0.N) (i : S50000x128.Idx)
    (h : t.val * 2000 ≤ (i 0).val ∧ (i 0).val < t.val * 2000 + 2000) : i ∈ ((cfg0.win 5).blk t).view.set := by
  have hi1 : (i 1).val < 128 := (i 1).isLt
  obtain ⟨-, -, -, -, -, -, -, -, -, e0, e1⟩ := idx_facts0 t
  show i ∈ ((View.whole main_v24).slice (win0_5.rect t)).set
  rw [View.set_slice_whole, Rect.mem_set_unit]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- Row `r` of the array lies in the block of point `r / 2000`. -/
theorem cover0 (i : S50000x128.Idx) :
    ∃ t : Fin cfg0.N, (cfg0.win 5).flush t = true ∧ i ∈ ((cfg0.win 5).blk t).view.set := by
  have hi0 : (i 0).val < 50000 := (i 0).isLt
  have ht : (i 0).val / 2000 < cfg0.N := by show (i 0).val / 2000 < 25; omega
  exact ⟨⟨(i 0).val / 2000, ht⟩, flush0_5 _, mem_blk0 ⟨(i 0).val / 2000, ht⟩ i (by
    show (i 0).val / 2000 * 2000 ≤ (i 0).val ∧ (i 0).val < (i 0).val / 2000 * 2000 + 2000; omega)⟩

/-- The output array after the region is the layer of the arrays the region found. -/
theorem out0 (c : Dev nD) :
    (dat0 (F := Ideal) V c).arrAt 5 cfg0.N
      = Cert.Sage.dense Cert.Sage.relu (V c main_v22) (V c main_arg0) (V c main_v12) (V c main_v23) (V c main_arg3) :=
  (dat0 (F := Ideal) V c).arrAt_eq_of_cover 5 (G0 V c) (fun t _ => flushed0_eq V c t) cover0

end Cert.KernelIdeal.RegionValue
end
-- ==== Proof.Region1Value.lean ====
/-
  What the second region leaves in its output array: the dense layer of the arrays the region finds.

  The region walks 25 grid points. At point `t` it loads rows `2000 t … 2000 t + 1999` of the neighbourhood
  sums, of the nodes' own features and of the column of the nodes' factors, together with the whole weight
  matrix and the whole bias, and stores the body's result into rows `2000 t … 2000 t + 1999` of the output.
  The body's result at row `p` of its blocks depends on row `p` of the three row blocks alone, so it is the
  layer (`Cert.Sage.lin` after the bias) at row `2000 t + p` of the arrays; every row `r` of the output is
  written by point `r / 2000`, so the array ends holding the layer everywhere.
-/
import proofs.«177798_j82205674045926_1_alg».proof.Proof.Gen.KernelIdeal.Frame
import proofs.«177798_j82205674045926_1_alg».proof.Proof.Dense
import proofs.«177798_j82205674045926_1_alg».proof.Proof.RegionPayload
import Idealize.ShloMosaic.Lib.Pipeline.Value

noncomputable section
namespace Cert.KernelIdeal.RegionValue
open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The layer (`Cert.Sage.lin` after the bias) of the arrays the region finds. -/
abbrev G1 (c : Dev nD) : FVec Ideal Cert.Sage.Nodes .f32 :=
  Cert.Sage.dense Cert.Sage.lin (V c main_v34) (V c main_v24) (V c main_v12) (V c main_v35) (V c main_arg5)

/-- The block index of every window at a grid point: the three row-blocked inputs and the output move with the
    point, the weight and the bias stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of the neighbourhood-sum block at point `t` is row `2000 t + p` of the array. -/
theorem iblk1_0_apply (c : Dev nD) (t : Fin cfg1.N) (p : Fin 2000) (k : Fin 128) (r : Fin 50000)
    (hr : r.val = t.val * 2000 + p.val) :
    (iblk1 (F := Ideal) V c 0 t : Vec Ideal S2000x128 .f32) (ix2 p k) = (V c main_v34 : S50000x128.Idx → EReal) (ix2 r k) := by
  obtain ⟨e0, e1, -⟩ := idx_facts1 t
  unfold iblk1
  rw [View.read_apply]
  refine congrArg (V c main_v34 : S50000x128.Idx → EReal) (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- The same for the block of the nodes' own features. -/
theorem iblk1_1_apply (c : Dev nD) (t : Fin cfg1.N) (p : Fin 2000) (k : Fin 128) (r : Fin 50000)
    (hr : r.val = t.val * 2000 + p.val) :
    (iblk1 (F := Ideal) V c 1 t : Vec Ideal S2000x128 .f32) (ix2 p k) = (V c main_v24 : S50000x128.Idx → EReal) (ix2 r k) := by
  obtain ⟨-, -, e0, e1, -⟩ := idx_facts1 t
  unfold iblk1
  rw [View.read_apply]
  refine congrArg (V c main_v24 : S50000x128.Idx → EReal) (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

/-- The same for the column of the nodes' factors. -/
theorem iblk1_2_apply (c : Dev nD) (t : Fin cfg1.N) (p : Fin 2000) (r : Fin 50000)
    (hr : r.val = t.val * 2000 + p.val) :
    (iblk1 (F := Ideal) V c 2 t : Vec Ideal S2000x1 .f32) (ix2 p (0 : Fin 1)) = (V c main_v12 : S50000x1.Idx → EReal) (ix2 r (0 : Fin 1)) := by
  obtain ⟨-, -, -, -, e0, e1, -⟩ := idx_facts1 t
  unfold iblk1
  rw [View.read_apply]
  refine congrArg (V c main_v12 : S50000x1.Idx → EReal) (funext fun a => Fin.ext ?_)
  match a with
  | ⟨0, _⟩ => show win1_2.index t (0 : Fin 2) * 2000 + 1 * p.val = r.val; omega
  | ⟨1, _⟩ => show win1_2.index t (1 : Fin 2) * 1 + 1 * 0 = 0; omega

/-- The weight block is the whole weight matrix at every point. -/
theorem iblk1_3_apply (c : Dev nD) (t : Fin cfg1.N) (k j : Fin 128) :
    (iblk1 (F := Ideal) V c 3 t : Vec Ideal S128x128 .f32) (ix2 k j) = (V c main_v35 : S128x128.Idx → EReal) (ix2 k j) := by
  obtain ⟨-, -, -, -, -, -, e0, e1, -⟩ := idx_facts1 t
  unfold iblk1
  rw [View.read_apply]
  refine congrArg (V c main_v35 : S128x128.Idx → EReal) (funext fun a => Fin.ext ?_)
  match a with
  | ⟨0, _⟩ => show win1_3.index t (0 : Fin 2) * 128 + 1 * k.val = k.val; omega
  | ⟨1, _⟩ => show win1_3.index t (1 : Fin 2) * 128 + 1 * j.val = j.val; omega

/-- The bias block is the whole bias at every point. -/
theorem iblk1_4_apply (c : Dev nD) (t : Fin cfg1.N) (j : Fin 128) :
    (iblk1 (F := Ideal) V c 4 t : Vec Ideal S128 .f32) (ix1 j) = (V c main_arg5 : S128.Idx → EReal) (ix1 j) := by
  obtain ⟨-, -, -, -, -, -, -, -, e0, -⟩ := idx_facts1 t
  unfold iblk1
  rw [View.read_apply]
  refine congrArg (V c main_arg5 : S128.Idx → EReal) (funext fun a => Fin.ext ?_)
  match a with
  | ⟨0, _⟩ => show win1_4.index t (0 : Fin 1) * 128 + 1 * j.val = j.val; omega

/-- The body's result on the blocks of point `t`, at row `p`, is the layer at row `2000 t + p`. -/
theorem block1_at (c : Dev nD) (t : Fin cfg1.N) (y : S2000x128.Idx) (i : S50000x128.Idx)
    (hi0 : (i 0).val = t.val * 2000 + (y 0).val) (hi1 : (i 1).val = (y 1).val) :
    k1_pay1 (F := Ideal) (iblk1 V c 0 t) (iblk1 V c 1 t) (iblk1 V c 2 t) (iblk1 V c 3 t) (iblk1 V c 4 t) y = G1 V c i := by
  obtain ⟨p, j, rfl⟩ : ∃ (p : Fin 2000) (j : Fin 128), y = ix2 p j := ⟨y 0, y 1, eq_ix2 y⟩
  obtain ⟨r, j', rfl⟩ : ∃ (r : Fin 50000) (j' : Fin 128), i = ix2 r j' := ⟨i 0, i 1, eq_ix2 i⟩
  have hr : r.val = t.val * 2000 + p.val := hi0
  obtain rfl : j' = j := Fin.ext hi1
  refine (RegionPayload.pay1_apply (iblk1 V c 0 t) (iblk1 V c 1 t) (iblk1 V c 2 t) (iblk1 V c 3 t) (iblk1 V c 4 t) p j').trans ?_
  rw [iblk1_4_apply V c t j', iblk1_2_apply V c t p r hr]
  refine congrArg (fun s => Cert.Sage.lin (s + (V c main_arg5 : S128.Idx → EReal) (ix1 j'))) (Finset.sum_congr rfl fun k _ => ?_)
  rw [iblk1_0_apply V c t p k r hr, iblk1_1_apply V c t p k r hr, iblk1_3_apply V c t k j']

/-- What point `t` writes back is block `t` of the layer. -/
theorem flushed1_eq (c : Dev nD) (t : Fin cfg1.N) :
    (dat1 (F := Ideal) V c).flushed 5 t = ((cfg1.win 5).blk t).view.read (Elt Ideal) (G1 V c) := by
  have hz2 : (![0, 0] : Fin 2 → Nat) = fun _ => 0 := funext fun a => by fin_cases a <;> rfl
  have hz1 : (![0] : Fin 1 → Nat) = fun _ => 0 := funext fun a => by fin_cases a; rfl
  show (cfg1.win 5).cut (grid1.coords t) ((dat1 (F := Ideal) V c).after 5 t) = _
  rw [after1_5]
  unfold out1_5
  rw [View.canon_unit_zero hz2]
  simp only [View.ld_unit_zero (S := S2000x128) hz2, View.ld_unit_zero (S := S2000x1) hz2,
    View.ld_unit_zero (S := S128x128) hz2, View.ld_unit_zero (S := S128) hz1]
  obtain ⟨-, -, -, -, -, -, -, -, -, e0, e1⟩ := idx_facts1 t
  funext y
  refine block1_at V c t _ (((cfg1.win 5).blk t).view.emb y) ?_ ?_
  · show win1_5.index t (0 : Fin 2) * 2000 + 1 * (y 0).val = t.val * 2000 + (y 0).val; omega
  · show win1_5.index t (1 : Fin 2) * 128 + 1 * (y 1).val = (y 1).val; omega

/-- An index whose row lies in the rows of point `t` is in that point's block. -/
theorem mem_blk1 (t : Fin cfg1.N) (i : S50000x128.Idx)
    (h : t.val * 2000 ≤ (i 0).val ∧ (i 0).val < t.val * 2000 + 2000) : i ∈ ((cfg1.win 5).blk t).view.set := by
  have hi1 : (i 1).val < 128 := (i 1).isLt
  obtain ⟨-, -, -, -, -, -, -, -, -, e0, e1⟩ := idx_facts1 t
  show i ∈ ((View.whole main_v36).slice (win1_5.rect t)).set
  rw [View.set_slice_whole, Rect.mem_set_unit]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- Row `r` of the array lies in the block of point `r / 2000`. -/
theorem cover1 (i : S50000x128.Idx) :
    ∃ t : Fin cfg1.N, (cfg1.win 5).flush t = true ∧ i ∈ ((cfg1.win 5).blk t).view.set := by
  have hi0 : (i 0).val < 50000 := (i 0).isLt
  have ht : (i 0).val / 2000 < cfg1.N := by show (i 0).val / 2000 < 25; omega
  exact ⟨⟨(i 0).val / 2000, ht⟩, flush1_5 _, mem_blk1 ⟨(i 0).val / 2000, ht⟩ i (by
    show (i 0).val / 2000 * 2000 ≤ (i 0).val ∧ (i 0).val < (i 0).val / 2000 * 2000 + 2000; omega)⟩

/-- The output array after the region is the layer of the arrays the region found. -/
theorem out1 (c : Dev nD) :
    (dat1 (F := Ideal) V c).arrAt 5 cfg1.N
      = Cert.Sage.dense Cert.Sage.lin (V c main_v34) (V c main_v24) (V c main_v12) (V c main_v35) (V c main_arg5) :=
  (dat1 (F := Ideal) V c).arrAt_eq_of_cover 5 (G1 V c) (fun t _ => flushed1_eq V c t) cover1

end Cert.KernelIdeal.RegionValue
end
-- ==== Proof.RegionValue.lean ====
/-
  What each of the two regions leaves in its output array, as the layer of the arrays the region found:
  `Cert.KernelIdeal.RegionValue.out0` for the first region (the rectifier after the bias) and
  `Cert.KernelIdeal.RegionValue.out1` for the second (nothing after the bias), one module each.
-/
import proofs.«177798_j82205674045926_1_alg».proof.Proof.Region0Value
import proofs.«177798_j82205674045926_1_alg».proof.Proof.Region1Value
-- ==== Proof.HostValue.lean ====
/-
  What the kernel program's result array holds, as a pure function of the six argument arrays.

  The program alternates stretches of host operations with two kernel regions. Before the first region the host
  forms, from the edge list `e` (row 0 the sources, row 1 the destinations): the per-node factor
  `1 / (deg + 1)` with `deg` the number of edges arriving at the node, the neighbourhood sum of the input features
  (a gather of the source rows scattered-and-added at the destinations), and the transposed weights. The first
  region leaves the hidden features `h1`: the rectified dense layer of those arrays. Between the regions the host
  forms the neighbourhood sum of `h1` over the same edges and transposes the second weights; the second region
  leaves the result: the dense layer without rectifier. Each boundary's contents are read buffer by buffer: a
  stretch's results from its operations, a region's output from its blocks, everything else carried over.
-/
import proofs.«177798_j82205674045926_1_alg».proof.Proof.Gen.KernelIdeal.Frame
import proofs.«177798_j82205674045926_1_alg».proof.Proof.Dense
import proofs.«177798_j82205674045926_1_alg».proof.Proof.RegionValue
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-! ## The host's pure terms -/

/-- The edges' source nodes. -/
def srcOf (e : IVec S2x800000 32) : IVec S800000 32 :=
  shapeCast _ (extractStridedSlice S1x800000 ![0, 0] e slices_S2x800000_S1x800000_0_0) shapeCasts_S1x800000_S800000
/-- The edges' destination nodes. -/
def dstOf (e : IVec S2x800000 32) : IVec S800000 32 :=
  shapeCast _ (extractStridedSlice S1x800000 ![1, 0] e slices_S2x800000_S1x800000_1_0) shapeCasts_S1x800000_S800000
/-- The gather's start indices: a negative source counts from the end. -/
def srcIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The scatter's indices: the destinations as they are. -/
def dstIdx (d : IVec S800000 32) : IVec S800000x1 32 :=
  broadcastInDim S800000x1 ![0] bcast_S800000_S800000x1_0 d
/-- The neighbourhood sum of `x`: row `src` of `x` added into row `dst`, edge by edge, from zero. -/
def aggOf (x : FVec Ideal S50000x128 .f32) (s d : IVec S800000 32) : FVec Ideal S50000x128 .f32 :=
  Host.scatterAdd scatter_S50000x128_S800000x1_S800000x128_1_0_0_1
    (broadcastInDim S50000x128 ![] bcast_S_S50000x128 (constant S_ .f32 0x00000000#32)) (dstIdx d)
    (Host.gather gather_S50000x128_S800000x1_S800000x128_1_0_n_n_0_1_1128 x (srcIdx s))
/-- The in-degree: one added into the destination, edge by edge, from zero. -/
def degOf (d : IVec S800000 32) : FVec Ideal S50000 .f32 :=
  Host.scatterAdd scatter_S50000_S800000x1_S800000_n_0_0_1
    (broadcastInDim S50000 ![] bcast_S_S50000 (constant S_ .f32 0x00000000#32)) (dstIdx d)
    (broadcastInDim S800000 ![] bcast_S_S800000 (constant S_ .f32 0x3F800000#32))
/-- The per-node factor `1 / (deg + 1)`, as a column. -/
def invOf (d : IVec S800000 32) : FVec Ideal S50000x1 .f32 :=
  shapeCast S50000x1 (Host.divf (broadcastInDim S50000 ![] bcast_S_S50000 (constant S_ .f32 0x3F800000#32))
    (addf (degOf d) (broadcastInDim S50000 ![] bcast_S_S50000 (constant S_ .f32 0x3F800000#32)))) shapeCasts_S50000_S50000x1
/-- A weight matrix transposed: input feature by output feature. -/
def wT (W : FVec Ideal S128x128 .f32) : FVec Ideal S128x128 .f32 :=
  transpose S128x128 [1, 0] W transposes_S128x128_S128x128_1_0

/-- The hidden features: the rectified first layer. -/
def hiddenOf (h : FVec Ideal S50000x128 .f32) (e : IVec S2x800000 32) (W1 : FVec Ideal S128x128 .f32) (b1 : FVec Ideal S128 .f32) :
    FVec Ideal S50000x128 .f32 :=
  Cert.Sage.dense Cert.Sage.relu (aggOf h (srcOf e) (dstOf e)) h (invOf (dstOf e)) (wT W1) b1
/-- The result: the second layer of the hidden features. -/
def resultOf (h : FVec Ideal S50000x128 .f32) (e : IVec S2x800000 32) (W1 : FVec Ideal S128x128 .f32) (b1 : FVec Ideal S128 .f32)
    (W2 : FVec Ideal S128x128 .f32) (b2 : FVec Ideal S128 .f32) : FVec Ideal S50000x128 .f32 :=
  Cert.Sage.dense Cert.Sage.lin (aggOf (hiddenOf h e W1 b1) (srcOf e) (dstOf e)) (hiddenOf h e W1 b1) (invOf (dstOf e)) (wT W2) b2

/-! ## The first stretch, from any entry contents `X` -/

section Stretch0
variable (X : Valuation τ sig (Elt Ideal))

theorem s0_src : StableHlo.after (hostOps0 (F := Ideal)) X (Proc.devRef .tc main_v1) = srcOf (X (Proc.devRef .tc main_arg1)) := by
  dsimp only [hostOps0]; after_results; rfl
theorem s0_dst : StableHlo.after (hostOps0 (F := Ideal)) X (Proc.devRef .tc main_v3) = dstOf (X (Proc.devRef .tc main_arg1)) := by
  dsimp only [hostOps0]; after_results; rfl
theorem s0_inv : StableHlo.after (hostOps0 (F := Ideal)) X (Proc.devRef .tc main_v12) = invOf (dstOf (X (Proc.devRef .tc main_arg1))) := by
  dsimp only [hostOps0]; after_results; rfl
theorem s0_agg : StableHlo.after (hostOps0 (F := Ideal)) X (Proc.devRef .tc main_v22)
    = aggOf (X (Proc.devRef .tc main_arg0)) (srcOf (X (Proc.devRef .tc main_arg1))) (dstOf (X (Proc.devRef .tc main_arg1))) := by
  dsimp only [hostOps0]; after_results_simp <;> rfl
theorem s0_wT : StableHlo.after (hostOps0 (F := Ideal)) X (Proc.devRef .tc main_v23) = wT (X (Proc.devRef .tc main_arg2)) := by
  dsimp only [hostOps0]; after_results; rfl
theorem s0_arg0 : StableHlo.after (hostOps0 (F := Ideal)) X (Proc.devRef .tc main_arg0) = X (Proc.devRef .tc main_arg0) := by
  dsimp only [hostOps0]; after_results
theorem s0_arg3 : StableHlo.after (hostOps0 (F := Ideal)) X (Proc.devRef .tc main_arg3) = X (Proc.devRef .tc main_arg3) := by
  dsimp only [hostOps0]; after_results
theorem s0_arg4 : StableHlo.after (hostOps0 (F := Ideal)) X (Proc.devRef .tc main_arg4) = X (Proc.devRef .tc main_arg4) := by
  dsimp only [hostOps0]; after_results
theorem s0_arg5 : StableHlo.after (hostOps0 (F := Ideal)) X (Proc.devRef .tc main_arg5) = X (Proc.devRef .tc main_arg5) := by
  dsimp only [hostOps0]; after_results

end Stretch0

/-! ## The second stretch, from any entry contents `Y` -/

section Stretch1
variable (Y : Valuation τ sig (Elt Ideal))

theorem s1_agg : StableHlo.after (hostOps1 (F := Ideal)) Y (Proc.devRef .tc main_v34)
    = aggOf (Y (Proc.devRef .tc main_v24)) (Y (Proc.devRef .tc main_v1)) (Y (Proc.devRef .tc main_v3)) := by
  dsimp only [hostOps1]; after_results; rfl
theorem s1_wT : StableHlo.after (hostOps1 (F := Ideal)) Y (Proc.devRef .tc main_v35) = wT (Y (Proc.devRef .tc main_arg4)) := by
  dsimp only [hostOps1]; after_results; rfl
theorem s1_hidden : StableHlo.after (hostOps1 (F := Ideal)) Y (Proc.devRef .tc main_v24) = Y (Proc.devRef .tc main_v24) := by
  dsimp only [hostOps1]; after_results
theorem s1_inv : StableHlo.after (hostOps1 (F := Ideal)) Y (Proc.devRef .tc main_v12) = Y (Proc.devRef .tc main_v12) := by
  dsimp only [hostOps1]; after_results
theorem s1_arg5 : StableHlo.after (hostOps1 (F := Ideal)) Y (Proc.devRef .tc main_arg5) = Y (Proc.devRef .tc main_arg5) := by
  dsimp only [hostOps1]; after_results

end Stretch1

/-! ## The boundaries' contents, from the launch memory `m` -/

section Fold
variable (m : (ℓ : Loc nD τ sig) → Buf (Elt Ideal) ℓ) (ρ : Dev nD → PrngReg) (c : Dev nD)

/-! ### At the first region's entry -/

theorem e0_src : W1 m ρ c (Proc.devRef .tc main_v1) = srcOf (m ((c.tc : Thread nD τ).loc main_arg1)) := s0_src (W0 m ρ c)
theorem e0_dst : W1 m ρ c (Proc.devRef .tc main_v3) = dstOf (m ((c.tc : Thread nD τ).loc main_arg1)) := s0_dst (W0 m ρ c)
theorem e0_inv : W1 m ρ c (Proc.devRef .tc main_v12) = invOf (dstOf (m ((c.tc : Thread nD τ).loc main_arg1))) := s0_inv (W0 m ρ c)
theorem e0_agg : W1 m ρ c (Proc.devRef .tc main_v22)
    = aggOf (m ((c.tc : Thread nD τ).loc main_arg0)) (srcOf (m ((c.tc : Thread nD τ).loc main_arg1))) (dstOf (m ((c.tc : Thread nD τ).loc main_arg1))) :=
  s0_agg (W0 m ρ c)
theorem e0_wT : W1 m ρ c (Proc.devRef .tc main_v23) = wT (m ((c.tc : Thread nD τ).loc main_arg2)) := s0_wT (W0 m ρ c)
theorem e0_arg0 : W1 m ρ c (Proc.devRef .tc main_arg0) = m ((c.tc : Thread nD τ).loc main_arg0) := s0_arg0 (W0 m ρ c)
theorem e0_arg3 : W1 m ρ c (Proc.devRef .tc main_arg3) = m ((c.tc : Thread nD τ).loc main_arg3) := s0_arg3 (W0 m ρ c)
theorem e0_arg4 : W1 m ρ c (Proc.devRef .tc main_arg4) = m ((c.tc : Thread nD τ).loc main_arg4) := s0_arg4 (W0 m ρ c)
theorem e0_arg5 : W1 m ρ c (Proc.devRef .tc main_arg5) = m ((c.tc : Thread nD τ).loc main_arg5) := s0_arg5 (W0 m ρ c)

/-! ### At the first region's exit: its output is the hidden features, the rest is carried over -/

theorem x0_hidden : W2 m ρ c (Proc.devRef .tc main_v24)
    = hiddenOf (m ((c.tc : Thread nD τ).loc main_arg0)) (m ((c.tc : Thread nD τ).loc main_arg1)) (m ((c.tc : Thread nD τ).loc main_arg2)) (m ((c.tc : Thread nD τ).loc main_arg3)) := by
  refine (W2_arr m ρ c 5).trans ?_
  rw [Cert.KernelIdeal.RegionValue.out0 (V1 m ρ) c]
  show Cert.Sage.dense Cert.Sage.relu (W1 m ρ c (Proc.devRef .tc main_v22)) (W1 m ρ c (Proc.devRef .tc main_arg0))
    (W1 m ρ c (Proc.devRef .tc main_v12)) (W1 m ρ c (Proc.devRef .tc main_v23)) (W1 m ρ c (Proc.devRef .tc main_arg3)) = _
  rw [e0_agg, e0_arg0, e0_inv, e0_wT, e0_arg3]; rfl
theorem x0_src : W2 m ρ c (Proc.devRef .tc main_v1) = srcOf (m ((c.tc : Thread nD τ).loc main_arg1)) :=
  (W2_of_ne m ρ c main_v1 (by decide)).trans (e0_src m ρ c)
theorem x0_dst : W2 m ρ c (Proc.devRef .tc main_v3) = dstOf (m ((c.tc : Thread nD τ).loc main_arg1)) :=
  (W2_of_ne m ρ c main_v3 (by decide)).trans (e0_dst m ρ c)
theorem x0_inv : W2 m ρ c (Proc.devRef .tc main_v12) = invOf (dstOf (m ((c.tc : Thread nD τ).loc main_arg1))) :=
  ((W2_arr m ρ c 2).trans (((dat0 (V1 m ρ) c).arrAt_in 2 rfl _).trans (A_eq0 (V1 m ρ) c 2))).trans (e0_inv m ρ c)
theorem x0_arg4 : W2 m ρ c (Proc.devRef .tc main_arg4) = m ((c.tc : Thread nD τ).loc main_arg4) :=
  (W2_of_ne m ρ c main_arg4 (by decide)).trans (e0_arg4 m ρ c)
theorem x0_arg5 : W2 m ρ c (Proc.devRef .tc main_arg5) = m ((c.tc : Thread nD τ).loc main_arg5) :=
  (W2_of_ne m ρ c main_arg5 (by decide)).trans (e0_arg5 m ρ c)

/-! ### At the second region's entry -/

theorem e1_agg : W3 m ρ c (Proc.devRef .tc main_v34)
    = aggOf (hiddenOf (m ((c.tc : Thread nD τ).loc main_arg0)) (m ((c.tc : Thread nD τ).loc main_arg1)) (m ((c.tc : Thread nD τ).loc main_arg2)) (m ((c.tc : Thread nD τ).loc main_arg3)))
        (srcOf (m ((c.tc : Thread nD τ).loc main_arg1))) (dstOf (m ((c.tc : Thread nD τ).loc main_arg1))) := by
  refine (s1_agg (W2 m ρ c)).trans ?_
  rw [x0_hidden, x0_src, x0_dst]
theorem e1_wT : W3 m ρ c (Proc.devRef .tc main_v35) = wT (m ((c.tc : Thread nD τ).loc main_arg4)) := by
  refine (s1_wT (W2 m ρ c)).trans ?_
  rw [x0_arg4]
theorem e1_hidden : W3 m ρ c (Proc.devRef .tc main_v24)
    = hiddenOf (m ((c.tc : Thread nD τ).loc main_arg0)) (m ((c.tc : Thread nD τ).loc main_arg1)) (m ((c.tc : Thread nD τ).loc main_arg2)) (m ((c.tc : Thread nD τ).loc main_arg3)) :=
  (s1_hidden (W2 m ρ c)).trans (x0_hidden m ρ c)
theorem e1_inv : W3 m ρ c (Proc.devRef .tc main_v12) = invOf (dstOf (m ((c.tc : Thread nD τ).loc main_arg1))) :=
  (s1_inv (W2 m ρ c)).trans (x0_inv m ρ c)
theorem e1_arg5 : W3 m ρ c (Proc.devRef .tc main_arg5) = m ((c.tc : Thread nD τ).loc main_arg5) :=
  (s1_arg5 (W2 m ρ c)).trans (x0_arg5 m ρ c)

/-! ### The result -/

/-- After the second region the result array holds the two-layer function of the arguments. -/
theorem result : W4 m ρ c (Proc.devRef .tc main_v36)
    = resultOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (W4_arr m ρ c 5).trans ?_
  rw [Cert.KernelIdeal.RegionValue.out1 (V3 m ρ) c]
  show Cert.Sage.dense Cert.Sage.lin (W3 m ρ c (Proc.devRef .tc main_v34)) (W3 m ρ c (Proc.devRef .tc main_v24))
    (W3 m ρ c (Proc.devRef .tc main_v12)) (W3 m ρ c (Proc.devRef .tc main_v35)) (W3 m ρ c (Proc.devRef .tc main_arg5)) = _
  rw [e1_agg, e1_hidden, e1_inv, e1_wT, e1_arg5]; rfl

end Fold

end Cert.KernelIdeal.HostValue

end
-- ==== Proof.RefLayer.lean ====
/-
  The reference's layer is the common layer function.

  At node `r` and output feature `j` the reference computes

      Σ_k ((agg[r,k] + x[r,k]) / (deg[r] + 1)) · W[j,k]  +  b[j],

  the quotient taken elementwise against `deg + 1` broadcast along the features, and `W[j,k]` read through
  its transpose as `wt[k,j]`. The common layer function multiplies by the node's factor `1 / (deg[r] + 1)`
  instead. On the extended reals `v · (1 / y) = v / y` whenever `y ≠ 0`, so the two agree term by term once
  `deg[r] + 1 ≠ 0`; no finiteness of any input is used.

  That `deg[r] + 1 ≠ 0`: the degree is an accumulating scatter of ones into an array of zeros, so at every
  node it is `0 + Σ 1` over the edges landing there, a sum of terms that are not negative, and one plus such
  a sum is not zero.
-/
import proofs.«177798_j82205674045926_1_alg».proof.Proof.Gen.ReferenceIdeal.Read
import proofs.«177798_j82205674045926_1_alg».proof.Proof.Dense
import Idealize.ShloMosaic.Lib.IdealHost

noncomputable section
namespace Cert.ReferenceIdeal.RefLayer
open Cert.ReferenceIdeal Cert.ReferenceIdeal.Gen Idealize.ShloMosaic Idealize.ShloMosaic.TcCoe Idealize.ShloMosaic.ValueIdx

def refDense (agg x : FVec Ideal S50000x128 .f32) (deg : FVec Ideal S50000 .f32) (W : FVec Ideal S128x128 .f32)
    (b : FVec Ideal S128 .f32) : FVec Ideal S50000x128 .f32 :=
  addf (Host.dotGeneral dot_S50000x128_S128x128_S50000x128_1_0_0_1_n_n none
      (Host.divf (addf agg x)
        (broadcastInDim S50000x128 ![0, 1] bcast_S50000x1_S50000x128_0_1
          (addf (broadcastInDim S50000x1 ![0] bcast_S50000_S50000x1_0 deg)
                (broadcastInDim S50000x1 ![] bcast_S_S50000x1 (constant S_ .f32 0x3F800000#32)))))
      (transpose S128x128 [1, 0] W transposes_S128x128_S128x128_1_0))
    (broadcastInDim S50000x128 ![0, 1] bcast_S1x128_S50000x128_0_1 (broadcastInDim S1x128 ![1] bcast_S128_S1x128_1 b))

def invDeg (deg : FVec Ideal S50000 .f32) (hb : S_.BroadcastsInDim S50000 ![]) (hc : S50000.ShapeCasts S50000x1) :
    FVec Ideal S50000x1 .f32 :=
  shapeCast S50000x1 (Host.divf (broadcastInDim S50000 ![] hb (constant S_ .f32 0x3F800000#32))
    (addf deg (broadcastInDim S50000 ![] hb (constant S_ .f32 0x3F800000#32)))) hc

/-- The divisor of the quotient at node `r`, any feature: one plus the node's degree. -/
theorem divisor_apply (deg : FVec Ideal S50000 .f32) (r : Fin 50000) (k : Fin 128) :
    broadcastInDim S50000x128 ![0, 1] bcast_S50000x1_S50000x128_0_1
        (addf (broadcastInDim S50000x1 ![0] bcast_S50000_S50000x1_0 deg)
              (broadcastInDim S50000x1 ![] bcast_S_S50000x1 (constant S_ .f32 0x3F800000#32))) (ix2 r k)
      = deg (ix1 r) + 1 := by
  generalize hy : addf (broadcastInDim S50000x1 ![0] bcast_S50000_S50000x1_0 deg)
              (broadcastInDim S50000x1 ![] bcast_S_S50000x1 (constant S_ .f32 0x3F800000#32)) = y
  rw [broadcastInDim_apply _ bcast_S50000x1_S50000x128_0_1 y (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])]
  subst hy
  rw [addf_apply, broadcastInDim_scalar_apply, constant_apply, Ideal.ofBits_one_f32,
    broadcastInDim_apply _ bcast_S50000_S50000x1_0 deg (ix2 r (0 : Fin 1)) (ix1 r) (fun a => match a with
    | ⟨0, _⟩ => by show r.val = if (50000 : Nat) = 1 then 0 else r.val; rw [if_neg (by decide)])]

/-- The bias, broadcast along the nodes, at node `r` and feature `j`. -/
theorem bias_apply (b : FVec Ideal S128 .f32) (r : Fin 50000) (j : Fin 128) :
    broadcastInDim S50000x128 ![0, 1] bcast_S1x128_S50000x128_0_1 (broadcastInDim S1x128 ![1] bcast_S128_S1x128_1 b) (ix2 r j)
      = b (ix1 j) := by
  generalize hy : broadcastInDim S1x128 ![1] bcast_S128_S1x128_1 b = y
  rw [broadcastInDim_apply _ bcast_S1x128_S50000x128_0_1 y (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])]
  subst hy
  rw [broadcastInDim_apply _ bcast_S128_S1x128_1 b (ix2 (0 : Fin 1) j) (ix1 j) (fun a => match a with
    | ⟨0, _⟩ => by show j.val = if (128 : Nat) = 1 then 0 else j.val; rw [if_neg (by decide)])]

/-- The contraction at node `r` and output feature `j`: the sum over the input features. -/
theorem dot_apply (y0 : FVec Ideal S50000x128 .f32) (y1 : FVec Ideal S128x128 .f32) (r : Fin 50000) (j : Fin 128) :
    Host.dotGeneral dot_S50000x128_S128x128_S50000x128_1_0_0_1_n_n none y0 y1 (ix2 r j)
      = ∑ k : Fin 128, y0 (ix2 r k) * y1 (ix2 k j) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r j) ((contrEquiv1 dot_S50000x128_S128x128_S50000x128_1_0_0_1_n_n 128 rfl rfl).symm k) = ix2 r k := funext fun a => Fin.ext (by
    match a with
    | ⟨0, _⟩ => exact Read.lhs_main_v25_0 _ _
    | ⟨1, _⟩ => exact (Read.lhs_main_v25_1 _ _).trans hk)
  have er : dot_S50000x128_S128x128_S50000x128_1_0_0_1_n_n.rhsIdx (ix2 r j) ((contrEquiv1 dot_S50000x128_S128x128_S50000x128_1_0_0_1_n_n 128 rfl rfl).symm k) = ix2 k j := funext fun a => Fin.ext (by
    match a with
    | ⟨0, _⟩ => exact (Read.rhs_main_v25_0 _ _).trans hk
    | ⟨1, _⟩ => exact Read.rhs_main_v25_1 _ _)
  rw [el, er]

/-- The node's factor, kept as a column: the reciprocal of one plus the degree. -/
theorem invDeg_apply (deg : FVec Ideal S50000 .f32) (hb : S_.BroadcastsInDim S50000 ![]) (hc : S50000.ShapeCasts S50000x1)
    (r : Fin 50000) : invDeg deg hb hc (ix2 r (0 : Fin 1)) = Ideal.div 1 (deg (ix1 r) + 1) := by
  unfold invDeg
  generalize hy : Host.divf (broadcastInDim S50000 ![] hb (constant S_ .f32 0x3F800000#32))
    (addf deg (broadcastInDim S50000 ![] hb (constant S_ .f32 0x3F800000#32))) = y
  rw [shapeCast_apply y hc (ix2 r (0 : Fin 1)) (ix1 r)
    (by rewrite [Shape.rowMajor_val_two, Shape.rowMajor_val_one]; show r.val = r.val * 1 + 0; omega)]
  subst hy
  rw [hostDivf_apply, addf_apply, broadcastInDim_scalar_apply, constant_apply, Ideal.ofBits_one_f32]

/-- The reference's layer at node `r`, output feature `j`, with the quotient written as the product with the
reciprocal: the two agree because the divisor `deg r + 1` is not zero. -/
theorem refDense_apply (agg x : FVec Ideal S50000x128 .f32) (deg : FVec Ideal S50000 .f32) (W : FVec Ideal S128x128 .f32)
    (b : FVec Ideal S128 .f32) (hdeg : ∀ r : Fin 50000, deg (ix1 r) + 1 ≠ 0) (r : Fin 50000) (j : Fin 128) :
    refDense agg x deg W b (ix2 r j)
      = (∑ k : Fin 128, ((agg (ix2 r k) + x (ix2 r k)) * Ideal.div 1 (deg (ix1 r) + 1))
            * transpose S128x128 [1, 0] W transposes_S128x128_S128x128_1_0 (ix2 k j)) + b (ix1 j) := by
  unfold refDense
  generalize transpose S128x128 [1, 0] W transposes_S128x128_S128x128_1_0 = wt
  rw [addf_apply, bias_apply, dot_apply]
  congr 1
  refine Finset.sum_congr rfl fun k _ => ?_
  rw [hostDivf_apply, addf_apply, divisor_apply, Ideal.mul_one_div (hdeg r)]

theorem refDense_eq (agg x : FVec Ideal S50000x128 .f32) (deg : FVec Ideal S50000 .f32) (W : FVec Ideal S128x128 .f32)
    (b : FVec Ideal S128 .f32) (hb : S_.BroadcastsInDim S50000 ![]) (hc : S50000.ShapeCasts S50000x1)
    (hdeg : ∀ r : Fin 50000, deg (ix1 r) + 1 ≠ 0) :
    refDense agg x deg W b
      = Cert.Sage.dense Cert.Sage.lin agg x (invDeg deg hb hc) (transpose S128x128 [1, 0] W transposes_S128x128_S128x128_1_0) b := by
  apply Cert.Sage.eq_dense_of_forall
  intro r j
  rw [refDense_apply agg x deg W b hdeg r j]
  unfold Cert.Sage.denseAt Cert.Sage.lin
  rw [invDeg_apply]

theorem relu_refDense_eq (agg x : FVec Ideal S50000x128 .f32) (deg : FVec Ideal S50000 .f32) (W : FVec Ideal S128x128 .f32)
    (b : FVec Ideal S128 .f32) (hb : S_.BroadcastsInDim S50000 ![]) (hc : S50000.ShapeCasts S50000x1)
    (hdeg : ∀ r : Fin 50000, deg (ix1 r) + 1 ≠ 0) :
    maximumf (refDense agg x deg W b) (broadcastInDim S50000x128 ![] bcast_S_S50000x128 (constant S_ .f32 0x00000000#32))
      = Cert.Sage.dense Cert.Sage.relu agg x (invDeg deg hb hc) (transpose S128x128 [1, 0] W transposes_S128x128_S128x128_1_0) b := by
  apply Cert.Sage.eq_dense_of_forall
  intro r j
  rw [maximumf_apply, broadcastInDim_scalar_apply, constant_apply, refDense_apply agg x deg W b hdeg r j]
  unfold Cert.Sage.denseAt Cert.Sage.relu
  rw [invDeg_apply]

/-- An accumulating scatter of ones into zeros, plus one, is not zero: the value is one plus a sum of ones. -/
theorem scatterAdd_add_one_ne {s si su : Shape} {w : Nat} (d : ScatterDims s si su) (x : FVec Ideal s .f32)
    (idx : IVec si w) (upd : FVec Ideal su .f32) (i : s.Idx) (hx : x i = 0) (hu : ∀ j, upd j = 1) :
    Host.scatterAdd (F := Ideal) d x idx upd i + 1 ≠ 0 := by
  unfold Host.scatterAdd
  rw [Ideal.hostScatterAdd_def]
  unfold Ideal.hostScatterAdd
  rw [hx, zero_add, add_comm]
  exact Ideal.one_add_sum_ne_zero _ _ (fun j _ => by rw [hu j]; exact zero_le_one)

theorem deg_add_one_ne (idx : IVec S800000x1 32) (r : Fin 50000) :
    Host.scatterAdd (F := Ideal) scatter_S50000_S800000x1_S800000_n_0_0_1
        (broadcastInDim S50000 ![] bcast_S_S50000 (constant S_ .f32 0x00000000#32)) idx
        (broadcastInDim S800000 ![] bcast_S_S800000 (constant S_ .f32 0x3F800000#32)) (ix1 r) + 1 ≠ 0 := by
  refine scatterAdd_add_one_ne _ _ _ _ _ ?_ ?_
  · rw [broadcastInDim_scalar_apply, constant_apply, Ideal.ofBits_zero_f32]
  · intro j
    rw [broadcastInDim_scalar_apply, constant_apply, Ideal.ofBits_one_f32]

-- the reference's stages are these terms
example (x0 : FVec Ideal S50000x128 .f32) (x1 : IVec S2x800000 32) (x2 : FVec Ideal S128x128 .f32) (x3 : FVec Ideal S128 .f32) :
    Cert.ReferenceIdeal.Read.val_main_v28 (F := Ideal) x0 x1 x2 x3
      = refDense (Cert.ReferenceIdeal.Read.val_main_v13 (F := Ideal) x0 x1) x0 (Cert.ReferenceIdeal.Read.val_main_v17 (F := Ideal) x1) x2 x3 := rfl

end Cert.ReferenceIdeal.RefLayer
end
-- ==== Proof.Bridge.lean ====
/-
  The reference's result is the kernel program's two-layer function of the same arguments.

  Stage by stage the reference forms the same neighbourhood sums and the same in-degree as the kernel program's
  host operations (the same gather and scatter-add over the same index arrays), so its first layer is the
  reference's dense layer of those arrays under the rectifier, and its second layer the dense layer of the hidden
  features. The reference divides by `deg + 1` where the kernel multiplies by `1 / (deg + 1)`; the in-degree is a
  sum of ones from zero, so `deg + 1` is never zero and the two agree on all extended reals.
-/
import proofs.«177798_j82205674045926_1_alg».proof.Proof.Gen.ReferenceIdeal.Read
import proofs.«177798_j82205674045926_1_alg».proof.Proof.RefLayer
import proofs.«177798_j82205674045926_1_alg».proof.Proof.HostValue

noncomputable section

namespace Cert.Proof.Bridge

open Idealize.ShloMosaic Idealize.ShloMosaic.TcCoe Idealize.SL.Sem Idealize.ShloMosaic.ValueIdx
open Cert.KernelIdeal.HostValue Cert.ReferenceIdeal.RefLayer Cert.ReferenceIdeal.Read

variable (x0 : FVec Ideal Cert.KernelIdeal.S50000x128 .f32) (x1 : IVec Cert.KernelIdeal.S2x800000 32)
  (x2 : FVec Ideal Cert.KernelIdeal.S128x128 .f32) (x3 : FVec Ideal Cert.KernelIdeal.S128 .f32)
  (x4 : FVec Ideal Cert.KernelIdeal.S128x128 .f32) (x5 : FVec Ideal Cert.KernelIdeal.S128 .f32)

/-- The in-degree plus one is never zero. -/
theorem deg_ne (r : Fin 50000) : degOf (dstOf x1) (ix1 r) + 1 ≠ 0 :=
  deg_add_one_ne (dstIdx (dstOf x1)) r

/-- The reference's first layer before the rectifier is its dense layer of the kernel program's host arrays. -/
theorem ref_pre_hidden : val_main_v28 (F := Ideal) x0 x1 x2 x3
    = refDense (aggOf x0 (srcOf x1) (dstOf x1)) x0 (degOf (dstOf x1)) x2 x3 := rfl

/-- The reference's hidden features are the kernel program's. -/
theorem ref_hidden : val_main_v29 (F := Ideal) x0 x1 x2 x3 = hiddenOf x0 x1 x2 x3 :=
  relu_refDense_eq (aggOf x0 (srcOf x1) (dstOf x1)) x0 (degOf (dstOf x1)) x2 x3
    Cert.KernelIdeal.Facts₀.bcast_S_S50000 Cert.KernelIdeal.Facts₀.shapeCasts_S50000_S50000x1 (deg_ne x1)

/-- The reference's result is its dense layer of the neighbourhood sum of its hidden features. -/
theorem ref_pre_result : val_main_v54 (F := Ideal) x0 x1 x2 x3 x4 x5
    = refDense (aggOf (val_main_v29 (F := Ideal) x0 x1 x2 x3) (srcOf x1) (dstOf x1)) (val_main_v29 (F := Ideal) x0 x1 x2 x3)
        (degOf (dstOf x1)) x4 x5 := rfl

/-- The reference's result is the kernel program's. -/
theorem ref_result : val_main_v54 (F := Ideal) x0 x1 x2 x3 x4 x5 = resultOf x0 x1 x2 x3 x4 x5 := by
  rw [ref_pre_result, ref_hidden]
  exact refDense_eq (aggOf (hiddenOf x0 x1 x2 x3) (srcOf x1) (dstOf x1)) (hiddenOf x0 x1 x2 x3) (degOf (dstOf x1)) x4 x5
    Cert.KernelIdeal.Facts₀.bcast_S_S50000 Cert.KernelIdeal.Facts₀.shapeCasts_S50000_S50000x1 (deg_ne x1)

end Cert.Proof.Bridge

end
-- ==== Proof.lean ====
/-
  A two-layer graph convolution: the kernel program against its reference, over the extended reals.

  Both programs take node features `h` (50000 nodes, 128 features), an edge list (sources in row 0, destinations in
  row 1), and two layers' weights and biases. A layer sends features `x` to

      ((A x + x) / (deg + 1)) · Wᵀ + b,

  `A x` the neighbourhood sum (row `src` of `x` added into row `dst`, edge by edge) and `deg` the in-degree; the
  first layer is followed by the rectifier, the second is not. The reference divides by `deg + 1`. The kernel program
  forms `1 / (deg + 1)` once on the host and multiplies by it inside two kernel regions, each of which also does the
  product with the transposed weights, the bias and, in the first, the rectifier, 2000 rows of nodes per grid point.

  The two results are one function of the arguments. A row of a layer depends on that row of its inputs alone, so the
  25 blocks of a region assemble the layer of the whole arrays (Proof/RegionValue.lean); the host operations around
  the regions are read buffer by buffer (Proof/HostValue.lean) and the program's run ends with the result array at
  that function (Proof/RunValue.lean). The in-degree is a sum of ones from zero, so `deg + 1` is never zero, and on
  the extended reals a product with `1 / d` is the quotient by `d` for every `d ≠ 0` (Proof/RefLayer.lean,
  Proof/Bridge.lean): no input needs to be finite for it. The matrix products agree because at the ideal instance a
  change of float format is the identity and a product into a zero accumulator is the plain sum of products.
  The three frames are the generated ones; the idealization rewrote nothing, so `preserves` has nothing to state.
-/
import proofs.«177798_j82205674045926_1_alg».proof.Defs
import proofs.«177798_j82205674045926_1_alg».proof.Proof.Gen.Kernel
import proofs.«177798_j82205674045926_1_alg».proof.Proof.Gen.Kernel.Skeleton
import proofs.«177798_j82205674045926_1_alg».proof.Proof.Gen.Kernel.Launch
import proofs.«177798_j82205674045926_1_alg».proof.Proof.Gen.Kernel.Points
import proofs.«177798_j82205674045926_1_alg».proof.Proof.Gen.Kernel.Frame
import proofs.«177798_j82205674045926_1_alg».proof.Proof.Gen.KernelIdeal
import proofs.«177798_j82205674045926_1_alg».proof.Proof.Gen.KernelIdeal.Skeleton
import proofs.«177798_j82205674045926_1_alg».proof.Proof.Gen.KernelIdeal.Launch
import proofs.«177798_j82205674045926_1_alg».proof.Proof.Gen.KernelIdeal.Points
import proofs.«177798_j82205674045926_1_alg».proof.Proof.Gen.KernelIdeal.Frame
import proofs.«177798_j82205674045926_1_alg».proof.Proof.Gen.ReferenceIdeal
import proofs.«177798_j82205674045926_1_alg».proof.Proof.Gen.ReferenceIdeal.Run
import proofs.«177798_j82205674045926_1_alg».proof.Proof.Gen.ReferenceIdeal.Read
import proofs.«177798_j82205674045926_1_alg».proof.Proof.Gen.Pre_finite_inputs
import proofs.«177798_j82205674045926_1_alg».proof.Proof.RunValue
import proofs.«177798_j82205674045926_1_alg».proof.Proof.HostValue
import proofs.«177798_j82205674045926_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at the two-layer function of
    the arguments. -/
theorem algebraic : Cert.algebraic_KernelIdeal_ReferenceIdeal := by
  intro m ρ m' ρ' _ hagree
  refine ⟨fun c => Cert.KernelIdeal.HostValue.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostValue.result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v54_eq, Cert.Proof.Bridge.ref_result, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
